-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048 .f32) (main_arg6 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S2048x2048 .f32) (main_arg1 : FVec F S2048x2048 .f32) (main_arg2 : FVec F S2048x2048 .f32) (main_arg3 : FVec F S2048 .f32) (main_arg4 : FVec F S2048 .f32) (main_arg5 : FVec F S2048 .f32) (main_arg6 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S2048x2048 : Shape := ⟨2, ![2048, 2048]⟩
abbrev S2048 : Shape := ⟨1, ![2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S1x256 : Shape := ⟨2, ![1, 256]⟩
abbrev S2048x256 : Shape := ⟨2, ![2048, 256]⟩

abbrev nBuf : Space → Nat
  | .hbm => 14
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S1x2048, .f32⟩
  | .hbm, ⟨9, _⟩ => ⟨S2048x1, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S2048x2048, .f32⟩
  | .local _ .vmem, ⟨0, _⟩ => ⟨S2048x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x1, .f32⟩
  | .local _ .vmem, ⟨6, _⟩ => ⟨S256x1, .f32⟩
  | .local _ .vmem, ⟨7, _⟩ => ⟨S1x2048, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2048x256, .f32⟩
  | .local _ .vmem, ⟨15, _⟩ => ⟨S2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S2048_S1x2048 : S2048.ShapeCasts S1x2048
  shapeCasts_S2048_S2048x1 : S2048.ShapeCasts S2048x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S256x1_S256x2048 : S256x1.Broadcasts S256x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x2048_S256x2048_S2048x256_1_1_0_0_n_n_wf : DotDims.WF S2048x2048 S256x2048 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .bf16 = 32 ∨ (Rect.block (s := S2048x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S2048x1.size a
  hwx0_3 : ∀ i : grid0.Coords, EltTy.bits .f32 = 32 ∨ (Rect.block (s := S2048x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .f32 = 32 ∨ (Rect.block (s := S2048x2048) S2048x256.size (cc0_transform_8 i) (hinb0_8 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win0_0 : Pipeline.Window sig grid0 :=
  Pipeline.Window.ofSpec (Memref.whole main_v0) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S1x256 : Shape := ⟨2, ![1, 256]⟩
abbrev S2048x256 : Shape := ⟨2, ![2048, 256]⟩

abbrev nBuf : Space → Nat
  | .hbm => 12
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048x2048, .f32⟩
  | .local _ .vmem, ⟨0, _⟩ => ⟨S2048x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2048_S1x2048 : S2048.ShapeCasts S1x2048
  inb_S2048x2048_S2048x2048_0_0 : ∀ a, (![0, 0] : Fin 2 → Nat) a + S2048x2048.size a ≤ S2048x2048.size a
  h_S2048x2048 : 0 < S2048x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x2048_S256x2048_S2048x256_1_1_0_0_n_n_wf : DotDims.WF S2048x2048 S256x2048 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .f32 = 32 ∨ (Rect.block (s := S2048x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .f32 = 32 ∨ (Rect.block (s := S2048x2048) S2048x256.size (cc0_transform_7 i) (hinb0_7 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win0_0 : Pipeline.Window sig grid0 :=
  Pipeline.Window.ofSpec (Memref.whole main_arg0) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.Law.lean ====
/-
  The one algebraic law of the noisy linear layer, on the extended reals.

  For a row `x`, weight rows `μ` and `σ`, an input-noise row `ε` and one output-noise scalar `e`,

      ∑ k, x k * (μ k + σ k * (e * ε k))  =  (∑ k, x k * μ k) + (∑ k, (x k * ε k) * σ k) * e :

  the product with the effective weight `μ + σ · (e · ε)` is the plain product plus the noisy product scaled by `e`.
  The law distributes a product over a sum and pulls a factor out of a sum, which fails at the infinities of the
  extended reals, so it is stated for FINITE entries (each the coercion of a real) and proved in ℝ.
-/
import Idealize.ShloMosaic.PureOps.Ideal

noncomputable section

open scoped BigOperators

namespace Cert.NoisyLinear

/-- An extended real that is the coercion of a real. -/
def IsReal (a : EReal) : Prop := ∃ r : ℝ, a = (r : EReal)

/-- The coercion ℝ → EReal commutes with a finite sum. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The law in ℝ. -/
theorem folded_eq_split_real {ι : Type*} [Fintype ι] (x μ σ ε : ι → ℝ) (e : ℝ) :
    ∑ k, x k * (μ k + σ k * (e * ε k)) = (∑ k, x k * μ k) + (∑ k, (x k * ε k) * σ k) * e := by
  rw [Finset.sum_mul, ← Finset.sum_add_distrib]
  exact Finset.sum_congr rfl fun k _ => by ring

/-- The law on the extended reals, for finite entries. -/
theorem folded_eq_split {ι : Type*} [Fintype ι] (x μ σ ε : ι → EReal) (e : EReal)
    (hx : ∀ k, IsReal (x k)) (hμ : ∀ k, IsReal (μ k)) (hσ : ∀ k, IsReal (σ k)) (hε : ∀ k, IsReal (ε k)) (he : IsReal e) :
    ∑ k, x k * (μ k + σ k * (e * ε k)) = (∑ k, x k * μ k) + (∑ k, (x k * ε k) * σ k) * e := by
  choose xr hxr using hx
  choose μr hμr using hμ
  choose σr hσr using hσ
  choose εr hεr using hε
  obtain ⟨er, rfl⟩ := he
  simp only [hxr, hμr, hσr, hεr, ← EReal.coe_mul, ← EReal.coe_add, ← coe_sum]
  exact congrArg _ (folded_eq_split_real xr μr σr εr er)

end Cert.NoisyLinear

end
-- ==== Proof.Finite.lean ====
/-
  What the precondition gives: every entry of every argument array is a real.

  `finite_inputs` is the conjunction, over the seven arrays, of "every entry's absolute value is below +∞". On the
  extended reals `max a (-a) < ⊤` rules out both infinities, so the entry is the coercion of a real.
-/
import proofs.«116723_g2000300704241984_pallasbulk_1338_2_alg».proof.Proof.Gen.Pre_finite_inputs
import proofs.«116723_g2000300704241984_pallasbulk_1338_2_alg».proof.Proof.Law
import Idealize.ShloMosaic.Lib.ReduceAll
import Idealize.ShloMosaic.Lib.ValueIdx
import Idealize.ShloMosaic.PureOps.Ideal.Laws

noncomputable section

namespace Cert.NoisyLinear

open Idealize.ShloMosaic Idealize.ShloMosaic.ValueIdx Cert.Pre_finite_inputs

instance : Subsingleton S_.Idx := ⟨fun a b => funext fun d => d.elim0⟩

/-- The word `0x7F800000` is +∞. -/
theorem top_word : Ideal.ofBits .f32 0x7F800000#32 = (⊤ : EReal) := by simp [Ideal.ofBits, Ideal.ieee]

/-- An extended real whose absolute value compares below +∞ is a real. -/
theorem isReal_of_abs_lt_top (a : EReal) (h : Ideal.cmp .olt (max a (-a)) ⊤ = 1#1) : IsReal a := by
  induction a using EReal.rec with
  | bot => simp [Ideal.cmp] at h
  | top => simp [Ideal.cmp] at h
  | coe r => exact ⟨r, rfl⟩

/-- One array's conjunct: the `jnp.all` of `|a| < +∞` being 1 makes every entry a real. -/
theorem isReal_of_all {s : Shape} {axes : List (Fin s.rank)} (a : FVec Ideal s .f32) (top : FVec Ideal s .f32)
    (htop : ∀ i, top i = (⊤ : EReal)) (init : IVec S_ 1) (hr : s.ReducesTo axes S_) (hu : 0 < S_.numel)
    (h : Host.reduce IntOp.andi (cmpf .olt (Host.absf a) top) init hr hu ix0 = 1#1) (i : s.Idx) : IsReal (a i) := by
  have e := Host.reduce_andi_all _ init hr hu ix0 h i
  refine isReal_of_abs_lt_top (a i) ?_
  have : FloatOps.cmpf (F := Ideal) .olt (FloatOps.hostAbsf (a i)) (top i) = 1#1 := e
  rw [htop i] at this
  exact this

/-- The precondition, opened: all seven arrays have real entries. -/
theorem isReal_of_pre (a0 a1 a2 : FVec Ideal S2048x2048 .f32) (a3 a4 a5 a6 : FVec Ideal S2048 .f32)
    (h : fn (F := Ideal) a0 a1 a2 a3 a4 a5 a6 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) := by
  have h0 := congrFun h ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  have ht2 : ∀ i : S2048x2048.Idx, (broadcastInDim S2048x2048 ![] Facts.bcast_S_S2048x2048
      (constant (F := Ideal) S_ .f32 0x7F800000#32)) i = (⊤ : EReal) := fun i => top_word
  have ht1 : ∀ i : S2048.Idx, (broadcastInDim S2048 ![] Facts.bcast_S_S2048
      (constant (F := Ideal) S_ .f32 0x7F800000#32)) i = (⊤ : EReal) := fun i => top_word
  exact ⟨isReal_of_all a0 _ ht2 _ _ _ e0, isReal_of_all a1 _ ht2 _ _ _ e1, isReal_of_all a2 _ ht2 _ _ _ e2,
    isReal_of_all a3 _ ht1 _ _ _ e3, isReal_of_all a4 _ ht1 _ _ _ e4, isReal_of_all a5 _ ht1 _ _ _ e5,
    isReal_of_all a6 _ ht1 _ _ _ e6⟩

end Cert.NoisyLinear

end
-- ==== Proof.Spec.lean ====
/-
  The noisy linear layer as ONE function of its seven argument arrays, entry by entry, in its two arrangements.

  `x` is the [2048, 2048] batch of inputs, `μw` and `σw` the [2048, 2048] weight means and deviations (row `o` is output
  feature `o`), `μb` and `σb` the bias mean and deviation, `εi` and `εo` the input and output noise. At the entry
  `(b, o)`:

    folded :  ∑ k, x(b,k) · (μw(o,k) + σw(o,k) · (εo(o) · εi(k)))                     + (σb(o) · εo(o) + μb(o))
    split  :  (∑ k, x(b,k) · μw(o,k)) + (∑ k, (x(b,k) · εi(k)) · σw(o,k)) · εo(o)      + (σb(o) · εo(o) + μb(o))

  The first multiplies by the effective weight; the second adds the plain product and the noisy one scaled by the
  output noise. For finite `x`, `μw`, `σw`, `εi`, `εo` they are one function (`split_eq_folded`, by the law of
  Law.lean row by row); the biases enter both the same way and need no finiteness.
-/
import proofs.«116723_g2000300704241984_pallasbulk_1338_2_alg».proof.Proof.Law
import Idealize.ShloMosaic.Lib.ValueIdx

noncomputable section

open scoped BigOperators

namespace Cert.NoisyLinear

open Idealize.ShloMosaic Idealize.ShloMosaic.ValueIdx

/-- A [2048, 2048] array of extended reals. -/
abbrev Mat : Type := (⟨2, ![2048, 2048]⟩ : Shape).Idx → EReal
/-- A [2048] array of extended reals. -/
abbrev Row : Type := (⟨1, ![2048]⟩ : Shape).Idx → EReal

/-- The bias term of output feature `o`. -/
def bias (μb σb εo : Row) (o : Fin 2048) : EReal := σb (ix1 o) * εo (ix1 o) + μb (ix1 o)

/-- The layer with the two products folded into one over the effective weight. -/
def folded (x μw σw : Mat) (μb σb εi εo : Row) : Mat := fun i =>
  (∑ k : Fin 2048, x (ix2 (i 0) k) * (μw (ix2 (i 1) k) + σw (ix2 (i 1) k) * (εo (ix1 (i 1)) * εi (ix1 k))))
    + bias μb σb εo (i 1)

/-- The layer as the plain product plus the noisy product scaled by the output noise. -/
def split (x μw σw : Mat) (μb σb εi εo : Row) : Mat := fun i =>
  ((∑ k : Fin 2048, x (ix2 (i 0) k) * μw (ix2 (i 1) k))
      + (∑ k : Fin 2048, (x (ix2 (i 0) k) * εi (ix1 k)) * σw (ix2 (i 1) k)) * εo (ix1 (i 1)))
    + bias μb σb εo (i 1)

/-- For finite inputs, weights and noise the two arrangements are one function. -/
theorem split_eq_folded (x μw σw : Mat) (μb σb εi εo : Row)
    (hx : ∀ i, IsReal (x i)) (hμ : ∀ i, IsReal (μw i)) (hσ : ∀ i, IsReal (σw i))
    (hεi : ∀ i, IsReal (εi i)) (hεo : ∀ i, IsReal (εo i)) :
    split x μw σw μb σb εi εo = folded x μw σw μb σb εi εo := by
  funext i
  unfold split folded
  rw [folded_eq_split (fun k => x (ix2 (i 0) k)) (fun k => μw (ix2 (i 1) k)) (fun k => σw (ix2 (i 1) k))
    (fun k => εi (ix1 k)) (εo (ix1 (i 1))) (fun k => hx _) (fun k => hμ _) (fun k => hσ _) (fun k => hεi _) (hεo _)]

end Cert.NoisyLinear

end
-- ==== Proof.LibMatmulTransposed.lean ====
/-
  A matrix product contracted on the LAST axis of both operands, read at one entry.

  With the dimension numbers `DotDims.transposedRhs M K N` (an `M×K` left operand, an `N×K` right operand, both
  contracted on axis 1: the product `x · wᵀ`), a `tpu.matmul` into the zero accumulator is, at the ideal values and at
  the output entry `(b, o)`, the plain sum `∑ k : Fin K, x (b, k) * w (o, k)`. The contraction index of the dimension
  numbers is re-indexed to its one coordinate; the four coordinate facts say which coordinate of the output entry or of
  the contraction index each operand axis reads.
-/
import Idealize.ShloMosaic.Lib.ValueIdx
import Idealize.ShloMosaic.PureOps.Ideal.Laws

noncomputable section

open scoped BigOperators

namespace Idealize.ShloMosaic.MatmulTransposed

open Idealize.ShloMosaic Idealize.ShloMosaic.ValueIdx

variable {M K N : Nat}

/-- The left operand's row coordinate is the output entry's row. -/
theorem lhs_axis0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_axis1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row coordinate is the output entry's column. -/
theorem rhs_axis0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_axis1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- `x · wᵀ` into the zero accumulator, at the entry `(b, o)`: the sum over `k` of `x (b, k) * w (o, k)`. -/
theorem matmul_zero_apply {φ₁ φ₂ : FTy} (prec : Option ContractPrecision)
    (x : FVec Ideal ⟨2, ![M, K]⟩ φ₁) (w : FVec Ideal ⟨2, ![N, K]⟩ φ₂) (b : Fin M) (o : Fin N) :
    FloatOps.matmul (DotDims.transposedRhs M K N) prec x w (constant ⟨2, ![M, N]⟩ .f32 0x00000000#32) (ix2 b o)
      = ∑ k : Fin K, x (ix2 b k) * w (ix2 o k) := by
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 b o) ((contrEquiv1 (DotDims.transposedRhs M K N) K rfl rfl).symm k)
      = ix2 b k := funext fun a => Fin.ext (by
    match a with
    | ⟨0, _⟩ => exact lhs_axis0 _ _
    | ⟨1, _⟩ => exact (lhs_axis1 _ _).trans hk)
  have er : (DotDims.transposedRhs M K N).rhsIdx (ix2 b o) ((contrEquiv1 (DotDims.transposedRhs M K N) K rfl rfl).symm k)
      = ix2 o k := funext fun a => Fin.ext (by
    match a with
    | ⟨0, _⟩ => exact rhs_axis0 _ _
    | ⟨1, _⟩ => exact (rhs_axis1 _ _).trans hk)
  rw [el, er]

end Idealize.ShloMosaic.MatmulTransposed

end
-- ==== Proof.LibColumn.lean ====
/-
  A column vector read at an entry: the two layout operations that make and spread a `[a, 1]` column.

  * a `[a]` array cast to a `[a, 1]` column reads, at `(i, u)`, the array at `i`;
  * a `[a, 1]` column broadcast to `[a, b]` reads, at `(p, c)`, the column at row `p`.
-/
import Idealize.ShloMosaic.Lib.ValueLayout
import Idealize.ShloMosaic.Lib.Pipeline.Value

noncomputable section

namespace Idealize.ShloMosaic.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.KernelValue.lean ====
/-
  What the fused kernel leaves in its result array, at the ideal values: the noisy linear layer in its FOLDED form.

  The grid has 8 points; point `t` computes the 256 output features `256 t … 256 t + 255` for the whole batch. Its body
  builds the effective weight tile `μw + σw · (εo ⊗ εi)` (a [256, 2048] tile: the output-noise column times the
  input-noise row, scaled by the deviations and added to the means), multiplies the whole input `x` by its transpose
  on the matrix unit, and adds the bias row `σb · εo + μb`. The conversions to bf16 — of `x` before the call, of the
  effective weight inside it — are the identity on extended reals.

  Read entry by entry (`pay_apply`) the tile's entry `(b, o)` is `folded` at `(b, 256 t + o)`: every input block is its
  array read at the block's rows or columns (`blk*_apply`), the arrays the host wrote before the call being plain
  reshapes of the arguments (`entry_*`). The eight column blocks tile the result array, so the array ends at `folded`
  of the arguments (`final`, `run`).
-/
import proofs.«116723_g2000300704241984_pallasbulk_1338_2_alg».proof.Proof.Gen.KernelIdeal.Value
import proofs.«116723_g2000300704241984_pallasbulk_1338_2_alg».proof.Proof.Spec
import proofs.«116723_g2000300704241984_pallasbulk_1338_2_alg».proof.Proof.LibMatmulTransposed
import proofs.«116723_g2000300704241984_pallasbulk_1338_2_alg».proof.Proof.LibColumn
import Idealize.ShloMosaic.Lib.Pipeline.Value
import Idealize.ShloMosaic.Lib.ValueLayout
import Idealize.ShloMosaic.Lib.StableHlo.Run

set_option maxRecDepth 16384

noncomputable section

open scoped BigOperators
open Idealize.ShloMosaic Idealize.ShloMosaic.TcCoe Idealize.SL.Sem
open Idealize.ShloMosaic.Pipeline (Dat)
open Idealize.ShloMosaic.ValueIdx Idealize.ShloMosaic.ColumnLayout

namespace Cert.KernelIdeal.Layer

open Cert.KernelIdeal Cert.KernelIdeal.Gen Cert.NoisyLinear

/-! ## One grid point's tile, entry by entry -/

/-- The body's result tile at `(b, o)`: the product of row `b` of the input with row `o` of the effective weight tile,
    plus the bias of feature `o`. -/
theorem pay_apply (v0 : Vec Ideal S256x1 .f32) (v2 : Vec Ideal S1x2048 .f32) (v7 v8 : Vec Ideal S256x2048 .f32)
    (v12 : Vec Ideal S2048x2048 .bf16) (v15 v17 v20 : Vec Ideal S1x256 .f32) (b : Fin 2048) (o : Fin 256) :
    k0_pay1 v0 v2 v7 v8 v12 v15 v17 v20 (ix2 b o)
      = (∑ k : Fin 2048, v12 (ix2 b k) * (v7 (ix2 o k) + v8 (ix2 o k) * (v0 (ix2 o (0 : Fin 1)) * v2 (ix2 (0 : Fin 1) k))))
        + (v15 (ix2 (0 : Fin 1) o) * v17 (ix2 (0 : Fin 1) o) + v20 (ix2 (0 : Fin 1) o)) := by
  unfold k0_pay1
  rw [addf_apply]
  refine congrArg₂ (· + ·) ((MatmulTransposed.matmul_zero_apply (M := 2048) (K := 2048) (N := 256) none _ _ b o).trans
    (Finset.sum_congr rfl fun k _ => ?_)) ?_
  · rw [shapeCast_self, truncf_apply, addf_apply, mulf_apply, mulf_apply, broadcastTo_a1_ab_apply,
      broadcastTo_1b_ab_apply, shapeCast_self, shapeCast_self]
  · rw [broadcastTo_1b_ab_apply, addf_apply, mulf_apply, shapeCast_self, shapeCast_self, shapeCast_self]

/-! ## The arrays the region reads, and the result -/

variable (m : (ℓ : Loc nD τ sig) → Buf (Elt Ideal) ℓ) (ρ : Dev nD → PrngReg)

theorem hz : (![0, 0] : Fin 2 → Nat) = fun _ => 0 := funext fun a => by fin_cases a <;> rfl

/-- The seven argument arrays as launched on core `c`. -/
abbrev argX (c : Dev nD) : Mat := m ((c : Thread nD τ).loc main_arg0)
abbrev argMW (c : Dev nD) : Mat := m ((c : Thread nD τ).loc main_arg1)
abbrev argSW (c : Dev nD) : Mat := m ((c : Thread nD τ).loc main_arg2)
abbrev argMB (c : Dev nD) : Row := m ((c : Thread nD τ).loc main_arg3)
abbrev argSB (c : Dev nD) : Row := m ((c : Thread nD τ).loc main_arg4)
abbrev argEI (c : Dev nD) : Row := m ((c : Thread nD τ).loc main_arg5)
abbrev argEO (c : Dev nD) : Row := m ((c : Thread nD τ).loc main_arg6)

/-- The result array: the folded layer of the arguments. -/
abbrev result (c : Dev nD) : Mat :=
  folded (argX m c) (argMW m c) (argSW m c) (argMB m c) (argSB m c) (argEI m c) (argEO m c)

/-- The grid has 8 points. -/
theorem lt8 (t : Fin cfg0.N) : t.val < 8 := by
  have h := t.isLt
  have h8 : cfg0.N = 8 := N_0
  omega

/-- Column `o` of grid point `t`'s tile is column `256 t + o` of the array. -/
def col (t : Fin cfg0.N) (o : Fin 256) : Fin 2048 := ⟨t.val * 256 + o.val, by have := lt8 t; have := o.isLt; omega⟩

/-- The input as the region finds it: the host's conversion to bf16 is the identity on extended reals. -/
theorem entry_x (c : Dev nD) : (V m c main_v0 : S2048x2048.Idx → EReal) = argX m c := by
  dsimp only [V, hostOps0]; after_results; rfl

/-- The input-noise row as the region finds it: the argument reshaped to one row. -/
theorem entry_ei (c : Dev nD) : (V m c main_v1 : S1x2048.Idx → EReal)
    = shapeCast S1x2048 (argEI m c) Facts₀.shapeCasts_S2048_S1x2048 := by
  dsimp only [V, hostOps0]; after_results; rfl

/-- The output-noise column as the region finds it: the argument reshaped to one column. -/
theorem entry_eo_col (c : Dev nD) : (V m c main_v2 : S2048x1.Idx → EReal)
    = shapeCast S2048x1 (argEO m c) Facts₀.shapeCasts_S2048_S2048x1 := by
  dsimp only [V, hostOps0]; after_results; rfl

/-- The output-noise row as the region finds it. -/
theorem entry_eo_row (c : Dev nD) : (V m c main_v3 : S1x2048.Idx → EReal)
    = shapeCast S1x2048 (argEO m c) Facts₀.shapeCasts_S2048_S1x2048 := by
  dsimp only [V, hostOps0]; after_results; rfl

/-- The bias-mean row as the region finds it. -/
theorem entry_mb (c : Dev nD) : (V m c main_v4 : S1x2048.Idx → EReal)
    = shapeCast S1x2048 (argMB m c) Facts₀.shapeCasts_S2048_S1x2048 := by
  dsimp only [V, hostOps0]; after_results; rfl

/-- The bias-deviation row as the region finds it. -/
theorem entry_sb (c : Dev nD) : (V m c main_v5 : S1x2048.Idx → EReal)
    = shapeCast S1x2048 (argSB m c) Facts₀.shapeCasts_S2048_S1x2048 := by
  dsimp only [V, hostOps0]; after_results; rfl

/-! ## Each window's block at a point, read off its array -/

/-- The printed index maps over the grid: the input and the input-noise row are whole at every point; the weight tiles
    and the output-noise column move down their rows with the point, the bias rows and the result along their columns. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

/-- The input block is the whole input. -/
theorem blk_x_apply (c : Dev nD) (t : Fin cfg0.N) (b k : Fin 2048) :
    (iblk m c 0 t : Vec Ideal S2048x2048 .bf16) (ix2 b k) = argX m c (ix2 b k) := by
  unfold iblk
  rw [View.read_apply]
  show V m c main_v0 _ = _
  rw [entry_x]
  refine congrArg (argX m c) (funext fun a => Fin.ext ?_)
  obtain ⟨e0, e1, -⟩ := idx_facts t
  match a with
  | ⟨0, _⟩ => show win0_0.index t (0 : Fin 2) * 2048 + 1 * b.val = b.val; omega
  | ⟨1, _⟩ => show win0_0.index t (1 : Fin 2) * 2048 + 1 * k.val = k.val; omega

/-- The weight-mean tile is rows `256 t … 256 t + 255` of the means. -/
theorem blk_mw_apply (c : Dev nD) (t : Fin cfg0.N) (o : Fin 256) (k : Fin 2048) :
    (iblk m c 1 t : Vec Ideal S256x2048 .f32) (ix2 o k) = argMW m c (ix2 (col t o) k) := by
  unfold iblk
  rw [View.read_apply]
  show V m c main_arg1 _ = _
  rw [V_main_arg1]
  refine congrArg (argMW m c) (funext fun a => Fin.ext ?_)
  obtain ⟨-, -, e0, e1, -⟩ := idx_facts t
  match a with
  | ⟨0, _⟩ => show win0_1.index t (0 : Fin 2) * 256 + 1 * o.val = t.val * 256 + o.val; omega
  | ⟨1, _⟩ => show win0_1.index t (1 : Fin 2) * 2048 + 1 * k.val = k.val; omega

/-- The weight-deviation tile is the same rows of the deviations. -/
theorem blk_sw_apply (c : Dev nD) (t : Fin cfg0.N) (o : Fin 256) (k : Fin 2048) :
    (iblk m c 2 t : Vec Ideal S256x2048 .f32) (ix2 o k) = argSW m c (ix2 (col t o) k) := by
  unfold iblk
  rw [View.read_apply]
  show V m c main_arg2 _ = _
  rw [V_main_arg2]
  refine congrArg (argSW m c) (funext fun a => Fin.ext ?_)
  obtain ⟨-, -, -, -, e0, e1, -⟩ := idx_facts t
  match a with
  | ⟨0, _⟩ => show win0_2.index t (0 : Fin 2) * 256 + 1 * o.val = t.val * 256 + o.val; omega
  | ⟨1, _⟩ => show win0_2.index t (1 : Fin 2) * 2048 + 1 * k.val = k.val; omega

/-- The output-noise column block holds the noise of features `256 t … 256 t + 255`. -/
theorem blk_eo_col_apply (c : Dev nD) (t : Fin cfg0.N) (o : Fin 256) :
    (iblk m c 3 t : Vec Ideal S256x1 .f32) (ix2 o (0 : Fin 1)) = argEO m c (ix1 (col t o)) := by
  unfold iblk
  rw [View.read_apply]
  show V m c main_v2 _ = _
  rw [entry_eo_col]
  refine (congrArg _ (?_ : _ = ix2 (col t o) (0 : Fin 1))).trans (shapeCast_a_a1_apply _ _ (col t o) 0)
  funext a
  apply Fin.ext
  obtain ⟨-, -, -, -, -, -, e0, e1, -⟩ := idx_facts t
  match a with
  | ⟨0, _⟩ => show win0_3.index t (0 : Fin 2) * 256 + 1 * o.val = t.val * 256 + o.val; omega
  | ⟨1, _⟩ => show win0_3.index t (1 : Fin 2) * 1 + 1 * 0 = 0; omega

/-- The input-noise row block is the whole input noise. -/
theorem blk_ei_apply (c : Dev nD) (t : Fin cfg0.N) (k : Fin 2048) :
    (iblk m c 4 t : Vec Ideal S1x2048 .f32) (ix2 (0 : Fin 1) k) = argEI m c (ix1 k) := by
  unfold iblk
  rw [View.read_apply]
  show V m c main_v1 _ = _
  rw [entry_ei]
  refine (congrArg _ (?_ : _ = ix2 (0 : Fin 1) k)).trans (shapeCast_a_1a_apply _ _ 0 k)
  funext a
  apply Fin.ext
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 2048 + 1 * k.val = k.val; omega

/-- The bias-mean block holds the means of features `256 t … 256 t + 255`. -/
theorem blk_mb_apply (c : Dev nD) (t : Fin cfg0.N) (o : Fin 256) :
    (iblk m c 5 t : Vec Ideal S1x256 .f32) (ix2 (0 : Fin 1) o) = argMB m c (ix1 (col t o)) := by
  unfold iblk
  rw [View.read_apply]
  show V m c main_v4 _ = _
  rw [entry_mb]
  refine (congrArg _ (?_ : _ = ix2 (0 : Fin 1) (col t o))).trans (shapeCast_a_1a_apply _ _ 0 (col t o))
  funext a
  apply Fin.ext
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 256 + 1 * o.val = t.val * 256 + o.val; omega

/-- The bias-deviation block likewise. -/
theorem blk_sb_apply (c : Dev nD) (t : Fin cfg0.N) (o : Fin 256) :
    (iblk m c 6 t : Vec Ideal S1x256 .f32) (ix2 (0 : Fin 1) o) = argSB m c (ix1 (col t o)) := by
  unfold iblk
  rw [View.read_apply]
  show V m c main_v5 _ = _
  rw [entry_sb]
  refine (congrArg _ (?_ : _ = ix2 (0 : Fin 1) (col t o))).trans (shapeCast_a_1a_apply _ _ 0 (col t o))
  funext a
  apply Fin.ext
  obtain ⟨-, -, -, -, -, -, -, -, -, -, -, -, e0, e1, -⟩ := idx_facts t
  match a with
  | ⟨0, _⟩ => show win0_6.index t (0 : Fin 2) * 1 + 1 * 0 = 0; omega
  | ⟨1, _⟩ => show win0_6.index t (1 : Fin 2) * 256 + 1 * o.val = t.val * 256 + o.val; omega

/-- The output-noise row block holds the same features' noise as the column block. -/
theorem blk_eo_row_apply (c : Dev nD) (t : Fin cfg0.N) (o : Fin 256) :
    (iblk m c 7 t : Vec Ideal S1x256 .f32) (ix2 (0 : Fin 1) o) = argEO m c (ix1 (col t o)) := by
  unfold iblk
  rw [View.read_apply]
  show V m c main_v3 _ = _
  rw [entry_eo_row]
  refine (congrArg _ (?_ : _ = ix2 (0 : Fin 1) (col t o))).trans (shapeCast_a_1a_apply _ _ 0 (col t o))
  funext a
  apply Fin.ext
  obtain ⟨-, -, -, -, -, -, -, -, -, -, -, -, -, -, e0, e1, -⟩ := idx_facts t
  match a with
  | ⟨0, _⟩ => show win0_7.index t (0 : Fin 2) * 1 + 1 * 0 = 0; omega
  | ⟨1, _⟩ => show win0_7.index t (1 : Fin 2) * 256 + 1 * o.val = t.val * 256 + o.val; omega

/-! ## A point's tile is its columns of the result; the tiles cover the array -/

/-- Point `t`'s tile at `(b, o)` is the folded layer at `(b, 256 t + o)`. -/
theorem tile_apply (c : Dev nD) (t : Fin cfg0.N) (b : Fin 2048) (o : Fin 256) :
    k0_pay1 (iblk m c 3 t) (iblk m c 4 t) (iblk m c 1 t) (iblk m c 2 t) (iblk m c 0 t) (iblk m c 6 t) (iblk m c 7 t)
        (iblk m c 5 t) (ix2 b o)
      = result m c (ix2 b (col t o)) := by
  refine (pay_apply (iblk m c 3 t) (iblk m c 4 t) (iblk m c 1 t) (iblk m c 2 t) (iblk m c 0 t) (iblk m c 6 t)
    (iblk m c 7 t) (iblk m c 5 t) b o).trans ?_
  show _ = (∑ k : Fin 2048, argX m c (ix2 b k) * (argMW m c (ix2 (col t o) k)
      + argSW m c (ix2 (col t o) k) * (argEO m c (ix1 (col t o)) * argEI m c (ix1 k))))
    + (argSB m c (ix1 (col t o)) * argEO m c (ix1 (col t o)) + argMB m c (ix1 (col t o)))
  refine congrArg₂ (· + ·) (Finset.sum_congr rfl fun k _ => ?_) ?_
  · rw [blk_x_apply, blk_mw_apply, blk_sw_apply, blk_eo_col_apply, blk_ei_apply]
  · rw [blk_sb_apply, blk_eo_row_apply, blk_mb_apply]

/-- Where the result window's block at point `t` sits in the array: all rows, columns `256 t … 256 t + 255`. -/
theorem emb_out (t : Fin cfg0.N) (j : S2048x256.Idx) :
    ((cfg0.win 8).blk t).view.emb j = ix2 (j 0) (col t (j 1)) := by
  funext a
  apply Fin.ext
  obtain ⟨-, -, -, -, -, -, -, -, -, -, -, -, -, -, -, -, e0, e1⟩ := idx_facts t
  match a with
  | ⟨0, _⟩ => show win0_8.index t (0 : Fin 2) * 2048 + 1 * (j 0).val = (j 0).val; omega
  | ⟨1, _⟩ => show win0_8.index t (1 : Fin 2) * 256 + 1 * (j 1).val = t.val * 256 + (j 1).val; omega

/-- What point `t` writes back is block `t` of the result. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero hz]
  simp only [View.ld_unit_zero (S := S256x1) hz, View.ld_unit_zero (S := S1x2048) hz,
    View.ld_unit_zero (S := S256x2048) hz, View.ld_unit_zero (S := S2048x2048) hz, View.ld_unit_zero (S := S1x256) hz]
  funext j
  show k0_pay1 (iblk m c 3 t) (iblk m c 4 t) (iblk m c 1 t) (iblk m c 2 t) (iblk m c 0 t) (iblk m c 6 t) (iblk m c 7 t)
      (iblk m c 5 t) j = result m c (((cfg0.win 8).blk t).view.emb j)
  exact ((congrArg _ (eq_ix2 (j : S2048x256.Idx))).trans (tile_apply m c t (j 0) (j 1))).trans
    (congrArg (result m c) (emb_out t j).symm)

/-- An index of the array is in point `t`'s block iff each coordinate is in the block's range on its axis. -/
theorem mem_blk (t : Fin cfg0.N) (i : S2048x2048.Idx) :
    i ∈ ((cfg0.win 8).blk t).view.set ↔ ∀ a : Fin 2, win0_8.index t a * S2048x256.size a ≤ (i a).val
      ∧ (i a).val < win0_8.index t a * S2048x256.size a + S2048x256.size a := by
  show i ∈ ((View.whole main_v6).slice (win0_8.rect t)).set ↔ _
  rw [View.set_slice_whole, Rect.mem_set_unit]
  exact Iff.rfl

/-- The eight column blocks tile the array, so it ends at the folded layer of the arguments. -/
theorem final (c : Dev nD) : (dats m 0 c).arrAt 8 cfg0.N = result m c :=
  (dats m 0 c).arrAt_eq_of_cover 8 (result m c) (fun t _ => flushed_eq m c t) fun i => by
    have hi0 : (i 0).val < 2048 := (i 0).isLt
    have hi1 : (i 1).val < 2048 := (i 1).isLt
    have h8 : cfg0.N = 8 := N_0
    refine ⟨⟨(i 1).val / 256, by omega⟩, flush0_8 _, ?_⟩
    rw [mem_blk]
    obtain ⟨-, -, -, -, -, -, -, -, -, -, -, -, -, -, -, -, e0, e1⟩ :=
      idx_facts (⟨(i 1).val / 256, by omega⟩ : Fin cfg0.N)
    intro a
    match a with
    | ⟨0, _⟩ =>
      show win0_8.index _ (0 : Fin 2) * 2048 ≤ (i 0).val ∧ (i 0).val < win0_8.index _ (0 : Fin 2) * 2048 + 2048
      omega
    | ⟨1, _⟩ =>
      show win0_8.index _ (1 : Fin 2) * 256 ≤ (i 1).val ∧ (i 1).val < win0_8.index _ (1 : Fin 2) * 256 + 256
      have e1' : win0_8.index (⟨(i 1).val / 256, by omega⟩ : Fin cfg0.N) (1 : Fin 2) = (i 1).val / 256 := e1
      omega

/-! ## The run -/

/-- Every weakly fair execution ends with the result array at the folded layer of the arguments, the arguments
    unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Layer

end
-- ==== Proof.ReferenceValue.lean ====
/-
  What the reference kernel leaves in its result array, at the ideal values: the noisy linear layer in its SPLIT form.

  The grid has 8 points; point `t` computes the 256 output features `256 t … 256 t + 255` for the whole batch. Its body
  multiplies the whole input `x` by the transposed weight-mean tile, multiplies the input scaled by the input-noise row
  by the transposed weight-deviation tile, scales that second product by the output-noise row, adds the two, and adds
  the bias row `σb · εo + μb`.

  Read entry by entry (`pay_apply`) the tile's entry `(b, o)` is `split` at `(b, 256 t + o)`: every input block is its
  array read at the block's rows or columns (`blk*_apply`), the rows the host wrote before the call being plain reshapes
  of the arguments (`entry_*`). The eight column blocks tile the result array, so the array ends at `split` of the
  arguments (`final`, `run`).
-/
import proofs.«116723_g2000300704241984_pallasbulk_1338_2_alg».proof.Proof.Gen.ReferenceIdeal.Value
import proofs.«116723_g2000300704241984_pallasbulk_1338_2_alg».proof.Proof.Spec
import proofs.«116723_g2000300704241984_pallasbulk_1338_2_alg».proof.Proof.LibMatmulTransposed
import Idealize.ShloMosaic.Lib.Pipeline.Value
import Idealize.ShloMosaic.Lib.ValueLayout
import Idealize.ShloMosaic.Lib.StableHlo.Run

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.ReferenceIdeal.Layer

open Cert.ReferenceIdeal Cert.ReferenceIdeal.Gen Cert.NoisyLinear

/-! ## One grid point's tile, entry by entry -/

/-- The body's result tile at `(b, o)`: row `b` of the input times row `o` of the weight-mean tile, plus row `b` of the
    noise-scaled input times row `o` of the weight-deviation tile scaled by the output noise of `o`, plus the bias
    of feature `o`. -/
theorem pay_apply (v0 : Vec Ideal S2048x2048 .f32) (v1 : Vec Ideal S1x256 .f32) (v3 : Vec Ideal S256x2048 .f32)
    (v5 : Vec Ideal S1x2048 .f32) (v9 : Vec Ideal S256x2048 .f32) (v11 v14 : Vec Ideal S1x256 .f32)
    (b : Fin 2048) (o : Fin 256) :
    k0_pay1 v0 v1 v3 v5 v9 v11 v14 (ix2 b o)
      = ((∑ k : Fin 2048, v0 (ix2 b k) * v3 (ix2 o k))
          + (∑ k : Fin 2048, (v0 (ix2 b k) * v5 (ix2 (0 : Fin 1) k)) * v9 (ix2 o k)) * v1 (ix2 (0 : Fin 1) o))
        + (v11 (ix2 (0 : Fin 1) o) * v1 (ix2 (0 : Fin 1) o) + v14 (ix2 (0 : Fin 1) o)) := by
  unfold k0_pay1
  rw [addf_apply, addf_apply, mulf_apply]
  refine congrArg₂ (· + ·) (congrArg₂ (· + ·)
    (MatmulTransposed.matmul_zero_apply (M := 2048) (K := 2048) (N := 256) none _ _ b o)
    (congrArg₂ (· * ·) ((MatmulTransposed.matmul_zero_apply (M := 2048) (K := 2048) (N := 256) none _ _ b o).trans
      (Finset.sum_congr rfl fun k _ => ?_)) ?_)) ?_
  · rw [mulf_apply, broadcastTo_1b_ab_apply, shapeCast_self]
  · rw [broadcastTo_1b_ab_apply, shapeCast_self]
  · rw [broadcastTo_1b_ab_apply, addf_apply, mulf_apply, shapeCast_self, shapeCast_self, shapeCast_self]

/-! ## The arrays the region reads, and the result -/

variable (m : (ℓ : Loc nD τ sig) → Buf (Elt Ideal) ℓ) (ρ : Dev nD → PrngReg)

theorem hz : (![0, 0] : Fin 2 → Nat) = fun _ => 0 := funext fun a => by fin_cases a <;> rfl

/-- The seven argument arrays as launched on core `c`. -/
abbrev argX (c : Dev nD) : Mat := m ((c : Thread nD τ).loc main_arg0)
abbrev argMW (c : Dev nD) : Mat := m ((c : Thread nD τ).loc main_arg1)
abbrev argSW (c : Dev nD) : Mat := m ((c : Thread nD τ).loc main_arg2)
abbrev argMB (c : Dev nD) : Row := m ((c : Thread nD τ).loc main_arg3)
abbrev argSB (c : Dev nD) : Row := m ((c : Thread nD τ).loc main_arg4)
abbrev argEI (c : Dev nD) : Row := m ((c : Thread nD τ).loc main_arg5)
abbrev argEO (c : Dev nD) : Row := m ((c : Thread nD τ).loc main_arg6)

/-- The result array: the split layer of the arguments. -/
abbrev result (c : Dev nD) : Mat :=
  split (argX m c) (argMW m c) (argSW m c) (argMB m c) (argSB m c) (argEI m c) (argEO m c)

/-- The grid has 8 points. -/
theorem lt8 (t : Fin cfg0.N) : t.val < 8 := by
  have h := t.isLt
  have h8 : cfg0.N = 8 := N_0
  omega

/-- Column `o` of grid point `t`'s tile is column `256 t + o` of the array. -/
def col (t : Fin cfg0.N) (o : Fin 256) : Fin 2048 := ⟨t.val * 256 + o.val, by have := lt8 t; have := o.isLt; omega⟩

/-- The bias-mean row as the region finds it: the argument reshaped to one row. -/
theorem entry_mb (c : Dev nD) : (V m c main_v0 : S1x2048.Idx → EReal)
    = shapeCast S1x2048 (argMB m c) Facts₀.shapeCasts_S2048_S1x2048 := by
  dsimp only [V, hostOps0]; after_results; rfl

/-- The bias-deviation row as the region finds it. -/
theorem entry_sb (c : Dev nD) : (V m c main_v1 : S1x2048.Idx → EReal)
    = shapeCast S1x2048 (argSB m c) Facts₀.shapeCasts_S2048_S1x2048 := by
  dsimp only [V, hostOps0]; after_results; rfl

/-- The input-noise row as the region finds it. -/
theorem entry_ei (c : Dev nD) : (V m c main_v2 : S1x2048.Idx → EReal)
    = shapeCast S1x2048 (argEI m c) Facts₀.shapeCasts_S2048_S1x2048 := by
  dsimp only [V, hostOps0]; after_results; rfl

/-- The output-noise row as the region finds it. -/
theorem entry_eo (c : Dev nD) : (V m c main_v3 : S1x2048.Idx → EReal)
    = shapeCast S1x2048 (argEO m c) Facts₀.shapeCasts_S2048_S1x2048 := by
  dsimp only [V, hostOps0]; after_results; rfl

/-! ## Each window's block at a point, read off its array -/

/-- The printed index maps over the grid: the input and the input-noise row are whole at every point; the weight tiles
    move down their rows with the point, the output-noise and bias rows and the result along their columns. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-- The input block is the whole input. -/
theorem blk_x_apply (c : Dev nD) (t : Fin cfg0.N) (b k : Fin 2048) :
    (iblk m c 0 t : Vec Ideal S2048x2048 .f32) (ix2 b k) = argX m c (ix2 b k) := by
  unfold iblk
  rw [View.read_apply]
  show V m c main_arg0 _ = _
  rw [V_main_arg0]
  refine congrArg (argX m c) (funext fun a => Fin.ext ?_)
  obtain ⟨e0, e1, -⟩ := idx_facts t
  match a with
  | ⟨0, _⟩ => show win0_0.index t (0 : Fin 2) * 2048 + 1 * b.val = b.val; omega
  | ⟨1, _⟩ => show win0_0.index t (1 : Fin 2) * 2048 + 1 * k.val = k.val; omega

/-- The weight-mean tile is rows `256 t … 256 t + 255` of the means. -/
theorem blk_mw_apply (c : Dev nD) (t : Fin cfg0.N) (o : Fin 256) (k : Fin 2048) :
    (iblk m c 1 t : Vec Ideal S256x2048 .f32) (ix2 o k) = argMW m c (ix2 (col t o) k) := by
  unfold iblk
  rw [View.read_apply]
  show V m c main_arg1 _ = _
  rw [V_main_arg1]
  refine congrArg (argMW m c) (funext fun a => Fin.ext ?_)
  obtain ⟨-, -, e0, e1, -⟩ := idx_facts t
  match a with
  | ⟨0, _⟩ => show win0_1.index t (0 : Fin 2) * 256 + 1 * o.val = t.val * 256 + o.val; omega
  | ⟨1, _⟩ => show win0_1.index t (1 : Fin 2) * 2048 + 1 * k.val = k.val; omega

/-- The weight-deviation tile is the same rows of the deviations. -/
theorem blk_sw_apply (c : Dev nD) (t : Fin cfg0.N) (o : Fin 256) (k : Fin 2048) :
    (iblk m c 2 t : Vec Ideal S256x2048 .f32) (ix2 o k) = argSW m c (ix2 (col t o) k) := by
  unfold iblk
  rw [View.read_apply]
  show V m c main_arg2 _ = _
  rw [V_main_arg2]
  refine congrArg (argSW m c) (funext fun a => Fin.ext ?_)
  obtain ⟨-, -, -, -, e0, e1, -⟩ := idx_facts t
  match a with
  | ⟨0, _⟩ => show win0_2.index t (0 : Fin 2) * 256 + 1 * o.val = t.val * 256 + o.val; omega
  | ⟨1, _⟩ => show win0_2.index t (1 : Fin 2) * 2048 + 1 * k.val = k.val; omega

/-- The input-noise row block is the whole input noise. -/
theorem blk_ei_apply (c : Dev nD) (t : Fin cfg0.N) (k : Fin 2048) :
    (iblk m c 3 t : Vec Ideal S1x2048 .f32) (ix2 (0 : Fin 1) k) = argEI m c (ix1 k) := by
  unfold iblk
  rw [View.read_apply]
  show V m c main_v2 _ = _
  rw [entry_ei]
  refine (congrArg _ (?_ : _ = ix2 (0 : Fin 1) k)).trans (shapeCast_a_1a_apply _ _ 0 k)
  funext a
  apply Fin.ext
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 2048 + 1 * k.val = k.val; omega

/-- The output-noise block holds the noise of features `256 t … 256 t + 255`. -/
theorem blk_eo_apply (c : Dev nD) (t : Fin cfg0.N) (o : Fin 256) :
    (iblk m c 4 t : Vec Ideal S1x256 .f32) (ix2 (0 : Fin 1) o) = argEO m c (ix1 (col t o)) := by
  unfold iblk
  rw [View.read_apply]
  show V m c main_v3 _ = _
  rw [entry_eo]
  refine (congrArg _ (?_ : _ = ix2 (0 : Fin 1) (col t o))).trans (shapeCast_a_1a_apply _ _ 0 (col t o))
  funext a
  apply Fin.ext
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 256 + 1 * o.val = t.val * 256 + o.val; omega

/-- The bias-mean block holds the means of the same features. -/
theorem blk_mb_apply (c : Dev nD) (t : Fin cfg0.N) (o : Fin 256) :
    (iblk m c 5 t : Vec Ideal S1x256 .f32) (ix2 (0 : Fin 1) o) = argMB m c (ix1 (col t o)) := by
  unfold iblk
  rw [View.read_apply]
  show V m c main_v0 _ = _
  rw [entry_mb]
  refine (congrArg _ (?_ : _ = ix2 (0 : Fin 1) (col t o))).trans (shapeCast_a_1a_apply _ _ 0 (col t o))
  funext a
  apply Fin.ext
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 256 + 1 * o.val = t.val * 256 + o.val; omega

/-- The bias-deviation block likewise. -/
theorem blk_sb_apply (c : Dev nD) (t : Fin cfg0.N) (o : Fin 256) :
    (iblk m c 6 t : Vec Ideal S1x256 .f32) (ix2 (0 : Fin 1) o) = argSB m c (ix1 (col t o)) := by
  unfold iblk
  rw [View.read_apply]
  show V m c main_v1 _ = _
  rw [entry_sb]
  refine (congrArg _ (?_ : _ = ix2 (0 : Fin 1) (col t o))).trans (shapeCast_a_1a_apply _ _ 0 (col t o))
  funext a
  apply Fin.ext
  obtain ⟨-, -, -, -, -, -, -, -, -, -, -, -, e0, e1, -⟩ := idx_facts t
  match a with
  | ⟨0, _⟩ => show win0_6.index t (0 : Fin 2) * 1 + 1 * 0 = 0; omega
  | ⟨1, _⟩ => show win0_6.index t (1 : Fin 2) * 256 + 1 * o.val = t.val * 256 + o.val; omega

/-! ## A point's tile is its columns of the result; the tiles cover the array -/

/-- Point `t`'s tile at `(b, o)` is the split layer at `(b, 256 t + o)`. -/
theorem tile_apply (c : Dev nD) (t : Fin cfg0.N) (b : Fin 2048) (o : Fin 256) :
    k0_pay1 (iblk m c 0 t) (iblk m c 4 t) (iblk m c 1 t) (iblk m c 3 t) (iblk m c 2 t) (iblk m c 6 t) (iblk m c 5 t)
        (ix2 b o)
      = result m c (ix2 b (col t o)) := by
  refine (pay_apply (iblk m c 0 t) (iblk m c 4 t) (iblk m c 1 t) (iblk m c 3 t) (iblk m c 2 t) (iblk m c 6 t)
    (iblk m c 5 t) b o).trans ?_
  show _ = ((∑ k : Fin 2048, argX m c (ix2 b k) * argMW m c (ix2 (col t o) k))
      + (∑ k : Fin 2048, (argX m c (ix2 b k) * argEI m c (ix1 k)) * argSW m c (ix2 (col t o) k)) * argEO m c (ix1 (col t o)))
    + (argSB m c (ix1 (col t o)) * argEO m c (ix1 (col t o)) + argMB m c (ix1 (col t o)))
  refine congrArg₂ (· + ·) (congrArg₂ (· + ·) (Finset.sum_congr rfl fun k _ => ?_)
    (congrArg₂ (· * ·) (Finset.sum_congr rfl fun k _ => ?_) ?_)) ?_
  · rw [blk_x_apply, blk_mw_apply]
  · rw [blk_x_apply, blk_ei_apply, blk_sw_apply]
  · rw [blk_eo_apply]
  · rw [blk_sb_apply, blk_eo_apply, blk_mb_apply]

/-- Where the result window's block at point `t` sits in the array: all rows, columns `256 t … 256 t + 255`. -/
theorem emb_out (t : Fin cfg0.N) (j : S2048x256.Idx) :
    ((cfg0.win 7).blk t).view.emb j = ix2 (j 0) (col t (j 1)) := by
  funext a
  apply Fin.ext
  obtain ⟨-, -, -, -, -, -, -, -, -, -, -, -, -, -, e0, e1⟩ := idx_facts t
  match a with
  | ⟨0, _⟩ => show win0_7.index t (0 : Fin 2) * 2048 + 1 * (j 0).val = (j 0).val; omega
  | ⟨1, _⟩ => show win0_7.index t (1 : Fin 2) * 256 + 1 * (j 1).val = t.val * 256 + (j 1).val; omega

/-- What point `t` writes back is block `t` of the result. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S1x2048) hz, View.ld_unit_zero (S := S256x2048) hz,
    View.ld_unit_zero (S := S2048x2048) hz, View.ld_unit_zero (S := S1x256) hz]
  funext j
  show k0_pay1 (iblk m c 0 t) (iblk m c 4 t) (iblk m c 1 t) (iblk m c 3 t) (iblk m c 2 t) (iblk m c 6 t) (iblk m c 5 t) j
    = result m c (((cfg0.win 7).blk t).view.emb j)
  exact ((congrArg _ (eq_ix2 (j : S2048x256.Idx))).trans (tile_apply m c t (j 0) (j 1))).trans
    (congrArg (result m c) (emb_out t j).symm)

/-- An index of the array is in point `t`'s block iff each coordinate is in the block's range on its axis. -/
theorem mem_blk (t : Fin cfg0.N) (i : S2048x2048.Idx) :
    i ∈ ((cfg0.win 7).blk t).view.set ↔ ∀ a : Fin 2, win0_7.index t a * S2048x256.size a ≤ (i a).val
      ∧ (i a).val < win0_7.index t a * S2048x256.size a + S2048x256.size a := by
  show i ∈ ((View.whole main_v4).slice (win0_7.rect t)).set ↔ _
  rw [View.set_slice_whole, Rect.mem_set_unit]
  exact Iff.rfl

/-- The eight column blocks tile the array, so it ends at the split layer of the arguments. -/
theorem final (c : Dev nD) : (dats m 0 c).arrAt 7 cfg0.N = result m c :=
  (dats m 0 c).arrAt_eq_of_cover 7 (result m c) (fun t _ => flushed_eq m c t) fun i => by
    have hi0 : (i 0).val < 2048 := (i 0).isLt
    have hi1 : (i 1).val < 2048 := (i 1).isLt
    have h8 : cfg0.N = 8 := N_0
    refine ⟨⟨(i 1).val / 256, by omega⟩, flush0_7 _, ?_⟩
    rw [mem_blk]
    obtain ⟨-, -, -, -, -, -, -, -, -, -, -, -, -, -, e0, e1⟩ :=
      idx_facts (⟨(i 1).val / 256, by omega⟩ : Fin cfg0.N)
    intro a
    match a with
    | ⟨0, _⟩ =>
      show win0_7.index _ (0 : Fin 2) * 2048 ≤ (i 0).val ∧ (i 0).val < win0_7.index _ (0 : Fin 2) * 2048 + 2048
      omega
    | ⟨1, _⟩ =>
      show win0_7.index _ (1 : Fin 2) * 256 ≤ (i 1).val ∧ (i 1).val < win0_7.index _ (1 : Fin 2) * 256 + 256
      have e1' : win0_7.index (⟨(i 1).val / 256, by omega⟩ : Fin cfg0.N) (1 : Fin 2) = (i 1).val / 256 := e1
      omega

/-! ## The run -/

/-- Every weakly fair execution ends with the result array at the split layer of the arguments, the arguments
    unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.ReferenceIdeal.Layer

end
-- ==== Proof.lean ====
/-
  A noisy linear layer, computed two ways, is one function of its arguments over the extended reals.

  Both programs compute, for a batch `x`, weight means and deviations `μw`, `σw`, bias mean and deviation `μb`, `σb`
  and factored noise `εi`, `εo`,

      y(b, o) = ∑ k, x(b,k) · μw(o,k) + (∑ k, (x(b,k) · εi(k)) · σw(o,k)) · εo(o) + (σb(o) · εo(o) + μb(o)).

  The reference computes exactly this arrangement, two matrix products per tile of 256 output features (ReferenceValue.lean:
  its result array ends at `split` of the arguments). The kernel folds the two products into one over the effective
  weight `μw(o,k) + σw(o,k) · (εo(o) · εi(k))`, with conversions to bf16 that are the identity on extended reals
  (KernelValue.lean: its result array ends at `folded` of the arguments). For finite inputs the two arrangements agree
  (Spec.lean, by the distributive law of Law.lean), and the precondition says the inputs are finite (Finite.lean).

  The three frame claims are the generated frames of the three programs; the kernel's idealization rewrote nothing.
-/
import proofs.«116723_g2000300704241984_pallasbulk_1338_2_alg».proof.Defs
import proofs.«116723_g2000300704241984_pallasbulk_1338_2_alg».proof.Proof.Gen.Kernel
import proofs.«116723_g2000300704241984_pallasbulk_1338_2_alg».proof.Proof.Gen.Kernel.Skeleton
import proofs.«116723_g2000300704241984_pallasbulk_1338_2_alg».proof.Proof.Gen.Kernel.Launch
import proofs.«116723_g2000300704241984_pallasbulk_1338_2_alg».proof.Proof.Gen.Kernel.Points
import proofs.«116723_g2000300704241984_pallasbulk_1338_2_alg».proof.Proof.Gen.Kernel.Frame
import proofs.«116723_g2000300704241984_pallasbulk_1338_2_alg».proof.Proof.Gen.KernelIdeal
import proofs.«116723_g2000300704241984_pallasbulk_1338_2_alg».proof.Proof.Gen.KernelIdeal.Skeleton
import proofs.«116723_g2000300704241984_pallasbulk_1338_2_alg».proof.Proof.Gen.KernelIdeal.Launch
import proofs.«116723_g2000300704241984_pallasbulk_1338_2_alg».proof.Proof.Gen.KernelIdeal.Points
import proofs.«116723_g2000300704241984_pallasbulk_1338_2_alg».proof.Proof.Gen.KernelIdeal.Frame
import proofs.«116723_g2000300704241984_pallasbulk_1338_2_alg».proof.Proof.Gen.ReferenceIdeal
import proofs.«116723_g2000300704241984_pallasbulk_1338_2_alg».proof.Proof.Gen.ReferenceIdeal.Skeleton
import proofs.«116723_g2000300704241984_pallasbulk_1338_2_alg».proof.Proof.Gen.ReferenceIdeal.Launch
import proofs.«116723_g2000300704241984_pallasbulk_1338_2_alg».proof.Proof.Gen.ReferenceIdeal.Points
import proofs.«116723_g2000300704241984_pallasbulk_1338_2_alg».proof.Proof.Gen.ReferenceIdeal.Frame
import proofs.«116723_g2000300704241984_pallasbulk_1338_2_alg».proof.Proof.Gen.Pre_finite_inputs
import proofs.«116723_g2000300704241984_pallasbulk_1338_2_alg».proof.Proof.Gen.KernelIdeal.Value
import proofs.«116723_g2000300704241984_pallasbulk_1338_2_alg».proof.Proof.Gen.ReferenceIdeal.Value
import proofs.«116723_g2000300704241984_pallasbulk_1338_2_alg».proof.Proof.Finite
import proofs.«116723_g2000300704241984_pallasbulk_1338_2_alg».proof.Proof.KernelValue
import proofs.«116723_g2000300704241984_pallasbulk_1338_2_alg».proof.Proof.ReferenceValue
import Idealize.ShloMosaic.Adequacy
import Idealize.ShloMosaic.Init

noncomputable section

namespace Cert.Proof

open Idealize.ShloMosaic Idealize.ShloMosaic.TcCoe Idealize.SL.Sem Cert.NoisyLinear

/-- From memories that agree on the arguments both programs end, the kernel's result at the folded layer of its
    arguments and the reference's at the split layer of its own; the arguments agree and are finite, so the two
    results are equal. -/
theorem algebraic : Cert.algebraic_KernelIdeal_ReferenceIdeal := by
  intro m ρ m' ρ' hpre hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Layer.run m' ρ')
  obtain ⟨a0, a1, a2, a3, a4, a5, a6⟩ := hagree c
  obtain ⟨f0, f1, f2, -, -, f5, f6⟩ := isReal_of_pre _ _ _ _ _ _ _ (hpre c)
  refine Eq.trans ?_ (split_eq_folded _ _ _ _ _ _ _ f0 f1 f2 f5 f6)
  show split (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3))
      (m' (c.tc.loc Cert.ReferenceIdeal.main_arg4)) (m' (c.tc.loc Cert.ReferenceIdeal.main_arg5))
      (m' (c.tc.loc Cert.ReferenceIdeal.main_arg6)) = _
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
